-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x500 : Shape := ⟨2, ![12288, 500]⟩
abbrev S12288x12288 : Shape := ⟨2, ![12288, 12288]⟩
abbrev S500x64 : Shape := ⟨2, ![500, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S12288x500 : S_.BroadcastsInDim S12288x500 (![] : Fin 0 → Fin S12288x500.rank)
  reducesTo_S12288x500_S_d0_1 : S12288x500.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S12288x500 .f32) (main_arg1 : FVec F S12288x12288 .f32) (main_arg2 : FVec F S500x64 .f32) (main_arg3 : FVec F S64 .f32) (main_arg4 : FVec F S64x16 .f32) (main_arg5 : FVec F S16 .f32) : IVec S_ 1 :=
  let main_v0 : FVec F S12288x500 .f32 := Host.absf main_arg0
  let main_cst : FVec F S_ .f32 := constant S_ .f32 0x7F800000#32
  let main_v1 : FVec F S12288x500 .f32 := broadcastInDim S12288x500 ![] bcast_S_S12288x500 main_cst
  let main_v2 : IVec S12288x500 1 := cmpf .olt main_v0 main_v1
  let main_c : IVec S_ 1 := constantI S_ 1 1#1
  let main_v3 : IVec S_ 1 := (fun x v => Host.reduce IntOp.andi x v reducesTo_S12288x500_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S500x64 .f32 := Host.absf main_arg2
  let main_cst_2 : FVec F S_ .f32 := constant S_ .f32 0x7F800000#32
  let main_v10 : FVec F S500x64 .f32 := broadcastInDim S500x64 ![] bcast_S_S500x64 main_cst_2
  let main_v11 : IVec S500x64 1 := cmpf .olt main_v9 main_v10
  let main_c_3 : IVec S_ 1 := constantI S_ 1 1#1
  let main_v12 : IVec S_ 1 := (fun x v => Host.reduce IntOp.andi x v reducesTo_S500x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S12288x500 : Shape := ⟨2, ![12288, 500]⟩
abbrev S12288x12288 : Shape := ⟨2, ![12288, 12288]⟩
abbrev S500x64 : Shape := ⟨2, ![500, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S12288x64 : Shape := ⟨2, ![12288, 64]⟩
abbrev S512x500 : Shape := ⟨2, ![512, 500]⟩
abbrev S512x64 : Shape := ⟨2, ![512, 64]⟩
abbrev S256x12288 : Shape := ⟨2, ![256, 12288]⟩
abbrev S256x64 : Shape := ⟨2, ![256, 64]⟩
abbrev S1x16 : Shape := ⟨2, ![1, 16]⟩
abbrev S12288x16 : Shape := ⟨2, ![12288, 16]⟩
abbrev S512x16 : Shape := ⟨2, ![512, 16]⟩
abbrev S256x16 : Shape := ⟨2, ![256, 16]⟩

abbrev nBuf : Space → Nat
  | .hbm => 12
  | .vmem => 22
  | .smem => 0
  | _ => 0

abbrev bufTy : (tb : Table) → Fin (tcTables nBuf tb) → BufTy
  | .hbm, ⟨0, _⟩ => ⟨S12288x500, .f32⟩
  | .hbm, ⟨1, _⟩ => ⟨S12288x12288, .f32⟩
  | .hbm, ⟨2, _⟩ => ⟨S500x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S12288x64, .bf16⟩
  | .hbm, ⟨8, _⟩ => ⟨S12288x64, .bf16⟩
  | .hbm, ⟨9, _⟩ => ⟨S1x16, .f32⟩
  | .hbm, ⟨10, _⟩ => ⟨S12288x16, .bf16⟩
  | .hbm, ⟨11, _⟩ => ⟨S12288x16, .f32⟩
  | .local _ .vmem, ⟨0, _⟩ => ⟨S512x500, .f32⟩
  | .local _ .vmem, ⟨1, _⟩ => ⟨S512x500, .f32⟩
  | .local _ .vmem, ⟨2, _⟩ => ⟨S500x64, .f32⟩
  | .local _ .vmem, ⟨3, _⟩ => ⟨S1x64, .f32⟩
  | .local _ .vmem, ⟨4, _⟩ => ⟨S512x64, .bf16⟩
  | .local _ .vmem, ⟨5, _⟩ => ⟨S512x64, .bf16⟩
  | .local _ .vmem, ⟨6, _⟩ => ⟨S256x12288, .f32⟩
  | .local _ .vmem, ⟨7, _⟩ => ⟨S256x12288, .f32⟩
  | .local _ .vmem, ⟨8, _⟩ => ⟨S12288x64, .bf16⟩
  | .local _ .vmem, ⟨9, _⟩ => ⟨S256x64, .bf16⟩
  | .local _ .vmem, ⟨10, _⟩ => ⟨S256x64, .bf16⟩
  | .local _ .vmem, ⟨11, _⟩ => ⟨S512x64, .bf16⟩
  | .local _ .vmem, ⟨12, _⟩ => ⟨S512x64, .bf16⟩
  | .local _ .vmem, ⟨13, _⟩ => ⟨S64x16, .f32⟩
  | .local _ .vmem, ⟨14, _⟩ => ⟨S1x16, .f32⟩
  | .local _ .vmem, ⟨15, _⟩ => ⟨S512x16, .bf16⟩
  | .local _ .vmem, ⟨16, _⟩ => ⟨S512x16, .bf16⟩
  | .local _ .vmem, ⟨17, _⟩ => ⟨S256x12288, .f32⟩
  | .local _ .vmem, ⟨18, _⟩ => ⟨S256x12288, .f32⟩
  | .local _ .vmem, ⟨19, _⟩ => ⟨S12288x16, .bf16⟩
  | .local _ .vmem, ⟨20, _⟩ => ⟨S256x16, .f32⟩
  | .local _ .vmem, ⟨21, _⟩ => ⟨S256x16, .f32⟩
  | _, _ => ⟨S12288x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![24], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x16 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![48], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x12288 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S12288x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S64_S1x64 : S64.ShapeCasts S1x64
  inb_S512x500_S512x500_0_0 : ∀ a, (![0, 0] : Fin 2 → Nat) a + S512x500.size a ≤ S512x500.size a
  h_S512x500 : 0 < S512x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  packedbf16_S512x64_S512x64_0_0 : (Rect.unit (s := S512x64) ![0, 0] S512x64.size inb_S512x64_S512x64_0_0).PackedRows (EltTy.packing .bf16)
  inb_S256x12288_S256x12288_0_0 : ∀ a, (![0, 0] : Fin 2 → Nat) a + S256x12288.size a ≤ S256x12288.size a
  h_S256x12288 : 0 < S256x12288.numel
  inb_S12288x64_S12288x64_0_0 : ∀ a, (![0, 0] : Fin 2 → Nat) a + S12288x64.size a ≤ S12288x64.size a
  h_S12288x64 : 0 < S12288x64.numel
  shapeCasts_S12288x64_S12288x64 : S12288x64.ShapeCasts S12288x64
  inb_S256x64_S256x64_0_0 : ∀ a, (![0, 0] : Fin 2 → Nat) a + S256x64.size a ≤ S256x64.size a
  h_S256x64 : 0 < S256x64.numel
  packedbf16_S256x64_S256x64_0_0 : (Rect.unit (s := S256x64) ![0, 0] S256x64.size inb_S256x64_S256x64_0_0).PackedRows (EltTy.packing .bf16)
  shapeCasts_S16_S1x16 : S16.ShapeCasts S1x16
  shapeCasts_S512x64_S512x64 : S512x64.ShapeCasts S512x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  packedbf16_S512x16_S512x16_0_0 : (Rect.unit (s := S512x16) ![0, 0] S512x16.size inb_S512x16_S512x16_0_0).PackedRows (EltTy.packing .bf16)
  inb_S12288x16_S12288x16_0_0 : ∀ a, (![0, 0] : Fin 2 → Nat) a + S12288x16.size a ≤ S12288x16.size a
  h_S12288x16 : 0 < S12288x16.numel
  shapeCasts_S12288x16_S12288x16 : S12288x16.ShapeCasts S12288x16
  inb_S256x16_S256x16_0_0 : ∀ a, (![0, 0] : Fin 2 → Nat) a + S256x16.size a ≤ S256x16.size a
  h_S256x16 : 0 < S256x16.numel
  dot_S512x500_S500x64_S512x64_1_0_0_1_n_n_wf : DotDims.WF S512x500 S500x64 S512x64 [1] [0] [0] [1] [] []
  dot_S256x12288_S12288x64_S256x64_1_0_0_1_n_n_wf : DotDims.WF S256x12288 S12288x64 S256x64 [1] [0] [0] [1] [] []
  dot_S512x64_S64x16_S512x16_1_0_0_1_n_n_wf : DotDims.WF S512x64 S64x16 S512x16 [1] [0] [0] [1] [] []
  dot_S256x12288_S12288x16_S256x16_1_0_0_1_n_n_wf : DotDims.WF S256x12288 S12288x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x500.size a ≤ S12288x500.size a
  hwx0_0 : ∀ i : grid0.Coords, EltTy.bits .f32 = 32 ∨ (Rect.block (s := S12288x500) S512x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S12288x64.size a
  hwx0_3 : ∀ i : grid0.Coords, EltTy.bits .bf16 = 32 ∨ (Rect.block (s := S12288x64) S512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x12288.size a ≤ S12288x12288.size a
  hwx1_0 : ∀ i : grid1.Coords, EltTy.bits .f32 = 32 ∨ (Rect.block (s := S12288x12288) S256x12288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12288x64.size a ≤ S12288x64.size a
  hwx1_1 : ∀ i : grid1.Coords, EltTy.bits .bf16 = 32 ∨ (Rect.block (s := S12288x64) S12288x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S12288x64.size a
  hwx1_2 : ∀ i : grid1.Coords, EltTy.bits .bf16 = 32 ∨ (Rect.block (s := S12288x64) S256x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S12288x64.size a
  hwx2_0 : ∀ i : grid2.Coords, EltTy.bits .bf16 = 32 ∨ (Rect.block (s := S12288x64) S512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x16.size a ≤ S12288x16.size a
  hwx2_3 : ∀ i : grid2.Coords, EltTy.bits .bf16 = 32 ∨ (Rect.block (s := S12288x16) S512x16.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x12288.size a ≤ S12288x12288.size a
  hwx3_0 : ∀ i : grid3.Coords, EltTy.bits .f32 = 32 ∨ (Rect.block (s := S12288x12288) S256x12288.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12288x16.size a ≤ S12288x16.size a
  hwx3_1 : ∀ i : grid3.Coords, EltTy.bits .bf16 = 32 ∨ (Rect.block (s := S12288x16) S12288x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x16.size a ≤ S12288x16.size a
  hwx3_2 : ∀ i : grid3.Coords, EltTy.bits .f32 = 32 ∨ (Rect.block (s := S12288x16) S256x16.size (cc3_transform_2 i) (hinb3_2 i)).WholeWords (EltTy.packing .f32)

variable [Facts₀]

def dot_S512x500_S500x64_S512x64_1_0_0_1_n_n : DotDims S512x500 S500x64 S512x64 where
  lhsContracting := [1]
  rhsContracting := [0]
  lhsNonContracting := [0]
  rhsNonContracting := [1]
  lhsBatch := []
  rhsBatch := []
  wf := dot_S512x500_S500x64_S512x64_1_0_0_1_n_n_wf
def dot_S256x12288_S12288x64_S256x64_1_0_0_1_n_n : DotDims S256x12288 S12288x64 S256x64 where
  lhsContracting := [1]
  rhsContracting := [0]
  lhsNonContracting := [0]
  rhsNonContracting := [1]
  lhsBatch := []
  rhsBatch := []
  wf := dot_S256x12288_S12288x64_S256x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S256x12288_S12288x16_S256x16_1_0_0_1_n_n : DotDims S256x12288 S12288x16 S256x16 where
  lhsContracting := [1]
  rhsContracting := [0]
  lhsNonContracting := [0]
  rhsNonContracting := [1]
  lhsBatch := []
  rhsBatch := []
  wf := dot_S256x12288_S12288x16_S256x16_1_0_0_1_n_n_wf

abbrev win0_0 : Pipeline.Window sig grid0 :=
  Pipeline.Window.ofSpec (Memref.whole main_arg0) S512x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x12288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S12288x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S256x12288.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S12288x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x500 : Shape := ⟨2, ![12288, 500]⟩
abbrev S12288x12288 : Shape := ⟨2, ![12288, 12288]⟩
abbrev S500x64 : Shape := ⟨2, ![500, 64]⟩
abbrev S64 : Shape := ⟨1, ![64]⟩
abbrev S64x16 : Shape := ⟨2, ![64, 16]⟩
abbrev S16 : Shape := ⟨1, ![16]⟩
abbrev S12288x64 : Shape := ⟨2, ![12288, 64]⟩
abbrev S1x64 : Shape := ⟨2, ![1, 64]⟩
abbrev S_ : Shape := ⟨0, ![]⟩
abbrev S12288x16 : Shape := ⟨2, ![12288, 16]⟩
abbrev S1x16 : Shape := ⟨2, ![1, 16]⟩

abbrev nBuf : Space → Nat
  | .hbm => 19
  | .vmem => 0
  | .smem => 0
  | _ => 0

abbrev bufTy : (tb : Table) → Fin (tcTables nBuf tb) → BufTy
  | .hbm, ⟨0, _⟩ => ⟨S12288x500, .f32⟩
  | .hbm, ⟨1, _⟩ => ⟨S12288x12288, .f32⟩
  | .hbm, ⟨2, _⟩ => ⟨S500x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S12288x64, .f32⟩
  | .hbm, ⟨7, _⟩ => ⟨S1x64, .f32⟩
  | .hbm, ⟨8, _⟩ => ⟨S12288x64, .f32⟩
  | .hbm, ⟨9, _⟩ => ⟨S12288x64, .f32⟩
  | .hbm, ⟨10, _⟩ => ⟨S12288x64, .f32⟩
  | .hbm, ⟨11, _⟩ => ⟨S_, .f32⟩
  | .hbm, ⟨12, _⟩ => ⟨S12288x64, .f32⟩
  | .hbm, ⟨13, _⟩ => ⟨S12288x64, .f32⟩
  | .hbm, ⟨14, _⟩ => ⟨S12288x16, .f32⟩
  | .hbm, ⟨15, _⟩ => ⟨S1x16, .f32⟩
  | .hbm, ⟨16, _⟩ => ⟨S12288x16, .f32⟩
  | .hbm, ⟨17, _⟩ => ⟨S12288x16, .f32⟩
  | .hbm, ⟨18, _⟩ => ⟨S12288x16, .f32⟩
  | _, _ => ⟨S12288x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S_S12288x64 : S_.BroadcastsInDim S12288x64 (![] : Fin 0 → Fin S12288x64.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  dot_S12288x500_S500x64_S12288x64_1_0_0_1_n_n_wf : DotDims.WF S12288x500 S500x64 S12288x64 [1] [0] [0] [1] [] []
  dot_S12288x12288_S12288x64_S12288x64_1_0_0_1_n_n_wf : DotDims.WF S12288x12288 S12288x64 S12288x64 [1] [0] [0] [1] [] []
  dot_S12288x64_S64x16_S12288x16_1_0_0_1_n_n_wf : DotDims.WF S12288x64 S64x16 S12288x16 [1] [0] [0] [1] [] []
  dot_S12288x12288_S12288x16_S12288x16_1_0_0_1_n_n_wf : DotDims.WF S12288x12288 S12288x16 S12288x16 [1] [0] [0] [1] [] []

variable [Facts₀]

def dot_S12288x500_S500x64_S12288x64_1_0_0_1_n_n : DotDims S12288x500 S500x64 S12288x64 where
  lhsContracting := [1]
  rhsContracting := [0]
  lhsNonContracting := [0]
  rhsNonContracting := [1]
  lhsBatch := []
  rhsBatch := []
  wf := dot_S12288x500_S500x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf
def dot_S12288x64_S64x16_S12288x16_1_0_0_1_n_n : DotDims S12288x64 S64x16 S12288x16 where
  lhsContracting := [1]
  rhsContracting := [0]
  lhsNonContracting := [0]
  rhsNonContracting := [1]
  lhsBatch := []
  rhsBatch := []
  wf := dot_S12288x64_S64x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf

class Facts : Prop extends Facts₀ where

variable [Facts]
-- ==== Proof.Layers.lean ====
/-
  The two operations a graph-convolution layer is made of, over the extended reals, index by index:
  the product of two matrices (entry (r, c) is the sum over the shared axis of row r against column c),
  a row vector added to every row, and the floor at zero. Two layers compose them as
  A · (max (A · (X · W₁ + b₁)) 0 · W₂ + b₂). Nothing here mentions a program: both sides of the
  certificate are shown to compute these functions of the argument arrays.
-/
import Idealize.ShloMosaic.PureOps.Ideal
import Idealize.ShloMosaic.Lib.ValueIdx

noncomputable section

open scoped BigOperators

namespace Cert.Layers

open Idealize.ShloMosaic Idealize.ShloMosaic.ValueIdx

/-- The matrix product: entry (r, c) sums, over the shared axis, row r of the left factor against column c of the right. -/
def matMul {n k d : Nat} (a : (⟨2, ![n, k]⟩ : Shape).Idx → EReal) (b : (⟨2, ![k, d]⟩ : Shape).Idx → EReal) :
    (⟨2, ![n, d]⟩ : Shape).Idx → EReal :=
  fun i => ∑ q : Fin k, a (ix2 (⟨(i 0).val, idx2_lt0 i⟩ : Fin n) q) * b (ix2 q (⟨(i 1).val, idx2_lt1 i⟩ : Fin d))

/-- A row vector added to every row of a matrix. -/
def addRow {n d : Nat} (y : (⟨2, ![n, d]⟩ : Shape).Idx → EReal) (b : (⟨1, ![d]⟩ : Shape).Idx → EReal) :
    (⟨2, ![n, d]⟩ : Shape).Idx → EReal :=
  fun i => y i + b (ix1 (⟨(i 1).val, idx2_lt1 i⟩ : Fin d))

/-- The single row of a one-row matrix, as a row vector. -/
def rowOf {d : Nat} (b : (⟨2, ![1, d]⟩ : Shape).Idx → EReal) : (⟨1, ![d]⟩ : Shape).Idx → EReal :=
  fun j => b (ix2 (0 : Fin 1) (⟨(j 0).val, (j 0).isLt⟩ : Fin d))

/-- The floor at zero, entry by entry. -/
def floorZero {n d : Nat} (y : (⟨2, ![n, d]⟩ : Shape).Idx → EReal) : (⟨2, ![n, d]⟩ : Shape).Idx → EReal :=
  fun i => max (y i) 0

/-- One dense layer: the rows of `x` against the columns of `w`, the bias row added. -/
def dense {n k d : Nat} (x : (⟨2, ![n, k]⟩ : Shape).Idx → EReal) (w : (⟨2, ![k, d]⟩ : Shape).Idx → EReal)
    (b : (⟨1, ![d]⟩ : Shape).Idx → EReal) : (⟨2, ![n, d]⟩ : Shape).Idx → EReal :=
  addRow (matMul x w) b

/-- The matrix product at an index whose row and column are known. -/
theorem matMul_apply {n k d : Nat} (a : (⟨2, ![n, k]⟩ : Shape).Idx → EReal) (b : (⟨2, ![k, d]⟩ : Shape).Idx → EReal)
    (i : (⟨2, ![n, d]⟩ : Shape).Idx) (r : Fin n) (s : Fin d) (hr : (i 0).val = r.val) (hs : (i 1).val = s.val) :
    matMul a b i = ∑ q : Fin k, a (ix2 r q) * b (ix2 q s) := by
  have e0 : (⟨(i 0).val, idx2_lt0 i⟩ : Fin n) = r := Fin.ext hr
  have e1 : (⟨(i 1).val, idx2_lt1 i⟩ : Fin d) = s := Fin.ext hs
  show (∑ q : Fin k, a (ix2 (⟨(i 0).val, idx2_lt0 i⟩ : Fin n) q) * b (ix2 q (⟨(i 1).val, idx2_lt1 i⟩ : Fin d))) = _
  rw [e0, e1]

/-- A dense layer at an index whose row and column are known. -/
theorem dense_apply {n k d : Nat} (x : (⟨2, ![n, k]⟩ : Shape).Idx → EReal) (w : (⟨2, ![k, d]⟩ : Shape).Idx → EReal)
    (b : (⟨1, ![d]⟩ : Shape).Idx → EReal) (i : (⟨2, ![n, d]⟩ : Shape).Idx) (r : Fin n) (s : Fin d)
    (hr : (i 0).val = r.val) (hs : (i 1).val = s.val) :
    dense x w b i = (∑ q : Fin k, x (ix2 r q) * w (ix2 q s)) + b (ix1 s) := by
  have e1 : (⟨(i 1).val, idx2_lt1 i⟩ : Fin d) = s := Fin.ext hs
  show matMul x w i + b (ix1 (⟨(i 1).val, idx2_lt1 i⟩ : Fin d)) = _
  rw [matMul_apply x w i r s hr hs, e1]

/-- The single row of a one-row matrix at a column. -/
theorem rowOf_apply {d : Nat} (b : (⟨2, ![1, d]⟩ : Shape).Idx → EReal) (s : Fin d) :
    rowOf b (ix1 s) = b (ix2 (0 : Fin 1) s) := rfl

/-- The two layers: aggregate the first dense layer over the graph, floor at zero, then aggregate the second. -/
def twoLayers {n f h o : Nat} (x : (⟨2, ![n, f]⟩ : Shape).Idx → EReal) (adj : (⟨2, ![n, n]⟩ : Shape).Idx → EReal)
    (w1 : (⟨2, ![f, h]⟩ : Shape).Idx → EReal) (b1 : (⟨1, ![h]⟩ : Shape).Idx → EReal)
    (w2 : (⟨2, ![h, o]⟩ : Shape).Idx → EReal) (b2 : (⟨1, ![o]⟩ : Shape).Idx → EReal) :
    (⟨2, ![n, o]⟩ : Shape).Idx → EReal :=
  matMul adj (dense (floorZero (matMul adj (dense x w1 b1))) w2 b2)

end Cert.Layers

end
-- ==== Proof.Dense1.lean ====
/- The first dense layer's kernel: what each grid point stores, and the array the region leaves. -/
import proofs.«119408_j20529943675404_1_alg».proof.Proof.Gen.KernelIdeal.Frame
import proofs.«119408_j20529943675404_1_alg».proof.Proof.Layers
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen Cert.Layers

/-! ## The matrix unit of the first dense layer, read at an entry -/

theorem lhs_row (i : S512x64.Idx) (q : dot_S512x500_S500x64_S512x64_1_0_0_1_n_n.contr.Idx) :
    (dot_S512x500_S500x64_S512x64_1_0_0_1_n_n.lhsIdx i q 0).val = (i 0).val := by
  unfold DotDims.lhsIdx
  rw [dif_neg (show ¬(0 : Fin S512x500.rank) ∈ dot_S512x500_S500x64_S512x64_1_0_0_1_n_n.lhsBatch by decide), dif_pos (show (0 : Fin S512x500.rank) ∈ dot_S512x500_S500x64_S512x64_1_0_0_1_n_n.lhsNonContracting by decide)]
  rfl
theorem lhs_shared (i : S512x64.Idx) (q : dot_S512x500_S500x64_S512x64_1_0_0_1_n_n.contr.Idx) :
    (dot_S512x500_S500x64_S512x64_1_0_0_1_n_n.lhsIdx i q 1).val = (q ⟨0, by decide⟩).val :=
  dot_S512x500_S500x64_S512x64_1_0_0_1_n_n.lhsIdx_val_of_single rfl i q
theorem rhs_shared (i : S512x64.Idx) (q : dot_S512x500_S500x64_S512x64_1_0_0_1_n_n.contr.Idx) :
    (dot_S512x500_S500x64_S512x64_1_0_0_1_n_n.rhsIdx i q 0).val = (q ⟨0, by decide⟩).val :=
  dot_S512x500_S500x64_S512x64_1_0_0_1_n_n.rhsIdx_val_of_single rfl i q
theorem rhs_col (i : S512x64.Idx) (q : dot_S512x500_S500x64_S512x64_1_0_0_1_n_n.contr.Idx) :
    (dot_S512x500_S500x64_S512x64_1_0_0_1_n_n.rhsIdx i q 1).val = (i 1).val := by
  unfold DotDims.rhsIdx
  rw [dif_neg (show ¬(1 : Fin S500x64.rank) ∈ dot_S512x500_S500x64_S512x64_1_0_0_1_n_n.rhsBatch by decide), dif_pos (show (1 : Fin S500x64.rank) ∈ dot_S512x500_S500x64_S512x64_1_0_0_1_n_n.rhsNonContracting by decide)]
  rfl

/-- Into a zero accumulator the matrix unit leaves, at entry (r, c), the sum over the 500 shared positions of
    row r of the left block against column c of the right. -/
theorem unit_apply (l : FVec Ideal S512x500 .bf16) (r : FVec Ideal S500x64 .bf16) (p : Fin 512) (c : Fin 64) :
    matmul dot_S512x500_S500x64_S512x64_1_0_0_1_n_n none l r (constant S512x64 .f32 0x00000000#32) (ix2 p c)
      = ∑ k : Fin 500, l (ix2 p k) * r (ix2 k c) := by
  simp only [matmul]
  rw [Ideal.matmul_constant_zero_apply, ← Equiv.sum_comp (contrEquiv1 dot_S512x500_S500x64_S512x64_1_0_0_1_n_n 500 rfl rfl).symm]
  refine Finset.sum_congr rfl fun k _ => ?_
  have hk := contrEquiv1_symm_val dot_S512x500_S500x64_S512x64_1_0_0_1_n_n 500 rfl rfl k
  have el : dot_S512x500_S500x64_S512x64_1_0_0_1_n_n.lhsIdx (ix2 p c) ((contrEquiv1 dot_S512x500_S500x64_S512x64_1_0_0_1_n_n 500 rfl rfl).symm k) = ix2 p k := funext fun a => Fin.ext (by
    match a with
    | ⟨0, _⟩ => exact lhs_row _ _
    | ⟨1, _⟩ => exact (lhs_shared _ _).trans hk)
  have er : dot_S512x500_S500x64_S512x64_1_0_0_1_n_n.rhsIdx (ix2 p c) ((contrEquiv1 dot_S512x500_S500x64_S512x64_1_0_0_1_n_n 500 rfl rfl).symm k) = ix2 k c := funext fun a => Fin.ext (by
    match a with
    | ⟨0, _⟩ => exact (rhs_shared _ _).trans hk
    | ⟨1, _⟩ => exact rhs_col _ _)
  rw [el, er]

/-- The bias block, a single row, spread over the 512 rows: entry (r, c) is the row's entry c. -/
theorem bias_apply (b : FVec Ideal S1x64 .f32) (p : Fin 512) (c : Fin 64) :
    broadcastTo S512x64 (shapeCast S1x64 b shapeCasts_S1x64_S1x64) broadcasts_S1x64_S512x64 (ix2 p c) = b (ix2 (0 : Fin 1) c) := by
  rw [shapeCast_self]
  exact broadcastTo_apply b broadcasts_S1x64_S512x64 (ix2 p c) (ix2 (0 : Fin 1) c) (fun a => by
    match a with
    | ⟨0, _⟩ => show (0 : Nat) = if (1 : Nat) = 1 then 0 else _; rw [if_pos rfl]
    | ⟨1, _⟩ => show c.val = if (64 : Nat) = 1 then 0 else c.val; rw [if_neg (by decide)])

/-- What the body stores, at entry (r, c) of its block: the 500-term sum plus the bias entry c
    (the changes of float format are the identity on the extended reals). -/
theorem stored_apply (x : Vec Ideal S512x500 .f32) (w : Vec Ideal S500x64 .f32) (b : Vec Ideal S1x64 .f32) (p : Fin 512) (c : Fin 64) :
    k0_pay1 (F := Ideal) x w b (ix2 p c) = (∑ k : Fin 500, x (ix2 p k) * w (ix2 k c)) + b (ix2 (0 : Fin 1) c) := by
  unfold k0_pay1
  refine (congrArg₂ (· + ·) (unit_apply _ _ p c) (bias_apply b p c)).trans ?_
  rfl

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

theorem point_lt (t : Fin cfg0.N) : t.val < 24 := lt_of_lt_of_eq t.isLt N_0

/-- The index maps over the 24 points: the input rows and the output rows move with the point, 512 rows a block;
    the weights, the bias and every column block stay at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the region reads, as it finds them. -/
abbrev xArr (c : Dev nD) : Vec Ideal S12288x500 .f32 := V c main_arg0
abbrev wArr (c : Dev nD) : Vec Ideal S500x64 .f32 := V c main_arg2
abbrev bArr (c : Dev nD) : Vec Ideal S1x64 .f32 := V c main_v0

/-- What the region leaves in its output array: the dense layer of the three arrays. -/
abbrev result (c : Dev nD) : Buf (Elt Ideal) ((c : Thread nD τ).loc main_v1) :=
  dense (n := 12288) (k := 500) (d := 64) (xArr V c) (wArr V c) (rowOf (bArr V c))

/-- Point t's input block is rows 512 t … 512 t + 511 of the input array. -/
theorem x_block (c : Dev nD) (t : Fin cfg0.N) (p : Fin 512) (k : Fin 500) :
    (iblk0 V c 0 t : Vec Ideal S512x500 .f32) (ix2 p k)
      = xArr V c (ix2 (⟨t.val * 512 + p.val, by have := point_lt t; omega⟩ : Fin 12288) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 500 + 1 * k.val = k.val; rw [e1]; omega

/-- The weights' block is the whole weight array at every point. -/
theorem w_block (c : Dev nD) (t : Fin cfg0.N) (k : Fin 500) (q : Fin 64) :
    (iblk0 V c 1 t : Vec Ideal S500x64 .f32) (ix2 k q) = wArr V c (ix2 k q) := by
  obtain ⟨-, -, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 500 + 1 * k.val = k.val; rw [e2]; omega
  | ⟨1, _⟩ => show win0_1.index t (1 : Fin 2) * 64 + 1 * q.val = q.val; rw [e3]; omega

/-- The bias block is the whole one-row bias array at every point. -/
theorem b_block (c : Dev nD) (t : Fin cfg0.N) (q : Fin 64) :
    (iblk0 V c 2 t : Vec Ideal S1x64 .f32) (ix2 (0 : Fin 1) q) = bArr V c (ix2 (0 : Fin 1) q) := by
  obtain ⟨-, -, -, -, e4, e5, -⟩ := idx_facts t
  unfold iblk0
  rw [View.read_apply]
  show V c main_v0 _ = V c main_v0 _
  refine congrArg (V c main_v0) (funext fun a => Fin.ext ?_)
  match a with
  | ⟨0, _⟩ => show win0_2.index t (0 : Fin 2) * 1 + 1 * 0 = 0; rw [e4]
  | ⟨1, _⟩ => show win0_2.index t (1 : Fin 2) * 64 + 1 * q.val = q.val; rw [e5]; omega

/-- What point t writes back is block t of the dense layer. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S512x500) hz, View.ld_unit_zero (S := S500x64) hz, View.ld_unit_zero (S := S1x64) hz]
  funext j
  obtain ⟨p, q, rfl⟩ : ∃ (p : Fin 512) (q : Fin 64), j = ix2 p q := ⟨j 0, j 1, eq_ix2 j⟩
  obtain ⟨-, -, -, -, -, -, e6, e7⟩ := idx_facts t
  have h0 : ((((cfg0.win 3).blk t).view.emb (ix2 p q)) 0).val = t.val * 512 + p.val := by
    show win0_3.index t (0 : Fin 2) * 512 + 1 * p.val = _; rw [e6]; omega
  have h1 : ((((cfg0.win 3).blk t).view.emb (ix2 p q)) 1).val = q.val := by
    show win0_3.index t (1 : Fin 2) * 64 + 1 * q.val = _; rw [e7]; omega
  rw [View.read_apply]
  show k0_pay1 (F := Ideal) (iblk0 V c 0 t) (iblk0 V c 1 t) (iblk0 V c 2 t) (ix2 p q)
    = result V c (((cfg0.win 3).blk t).view.emb (ix2 p q))
  refine (stored_apply (iblk0 V c 0 t) (iblk0 V c 1 t) (iblk0 V c 2 t) p q).trans ?_
  refine Eq.trans ?_ (dense_apply (n := 12288) (k := 500) (d := 64) (xArr V c) (wArr V c) (rowOf (bArr V c))
    (((cfg0.win 3).blk t).view.emb (ix2 p q)) (⟨t.val * 512 + p.val, by have := point_lt t; omega⟩ : Fin 12288) q h0 h1).symm
  rw [b_block V c t q, rowOf_apply]
  refine congrArg (· + bArr V c (ix2 (0 : Fin 1) q)) (Finset.sum_congr rfl fun k _ => ?_)
  rw [x_block V c t p k, w_block V c t k q]

/-- An index of the output array is in point t's block iff each coordinate is in the block's range on its axis. -/
theorem mem_blk (t : Fin cfg0.N) (i : S12288x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v1).slice (win0_3.rect t)).set ↔ _
  rw [View.set_slice_whole, Rect.mem_set_unit]
  exact Iff.rfl

/-- Every row r lies in the block of point r / 512, and every point writes its block back. -/
theorem covered (i : S12288x64.Idx) :
    ∃ t : Fin cfg0.N, (cfg0.win 3).flush t = true ∧ i ∈ ((cfg0.win 3).blk t).view.set := by
  have hi0 : (i 0).val < 12288 := (i 0).isLt
  have hi1 : (i 1).val < 64 := (i 1).isLt
  have hN : cfg0.N = 24 := N_0
  refine ⟨⟨(i 0).val / 512, by rw [hN]; omega⟩, flush0_3 _, ?_⟩
  obtain ⟨-, -, -, -, -, -, e6, e7⟩ := idx_facts ⟨(i 0).val / 512, by rw [hN]; omega⟩
  rw [mem_blk]
  intro a
  match a with
  | ⟨0, _⟩ =>
    show win0_3.index _ (0 : Fin 2) * 512 ≤ (i 0).val ∧ (i 0).val < win0_3.index _ (0 : Fin 2) * 512 + 512
    rw [e6]; show (i 0).val / 512 * 512 ≤ (i 0).val ∧ (i 0).val < (i 0).val / 512 * 512 + 512; omega
  | ⟨1, _⟩ =>
    show win0_3.index _ (1 : Fin 2) * 64 ≤ (i 1).val ∧ (i 1).val < win0_3.index _ (1 : Fin 2) * 64 + 64
    rw [e7]; omega

/-- The array the region leaves is the dense layer of the arrays it read. -/
theorem final (c : Dev nD) : (dat0 V c).arrAt 3 cfg0.N = result V c :=
  (dat0 V c).arrAt_eq_of_cover 3 (result V c) (fun t _ => flushed_eq V c t) covered

end Array

end Cert.KernelIdeal.Dense1

end
-- ==== Proof.Agg1.lean ====
/- The first aggregation's kernel: each grid point multiplies 256 rows of the adjacency matrix against the whole
   first-layer array and floors the result at zero; the region leaves that product, floored, in its output array. -/
import proofs.«119408_j20529943675404_1_alg».proof.Proof.Gen.KernelIdeal.Frame
import proofs.«119408_j20529943675404_1_alg».proof.Proof.Layers
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Agg1

open Cert.KernelIdeal Cert.KernelIdeal.Gen Cert.Layers

/-! ## The matrix unit of the aggregation, read at an entry -/

theorem lhs_row (i : S256x64.Idx) (q : dot_S256x12288_S12288x64_S256x64_1_0_0_1_n_n.contr.Idx) :
    (dot_S256x12288_S12288x64_S256x64_1_0_0_1_n_n.lhsIdx i q 0).val = (i 0).val := by
  unfold DotDims.lhsIdx
  rw [dif_neg (show ¬(0 : Fin S256x12288.rank) ∈ dot_S256x12288_S12288x64_S256x64_1_0_0_1_n_n.lhsBatch by decide), dif_pos (show (0 : Fin S256x12288.rank) ∈ dot_S256x12288_S12288x64_S256x64_1_0_0_1_n_n.lhsNonContracting by decide)]
  rfl
theorem lhs_shared (i : S256x64.Idx) (q : dot_S256x12288_S12288x64_S256x64_1_0_0_1_n_n.contr.Idx) :
    (dot_S256x12288_S12288x64_S256x64_1_0_0_1_n_n.lhsIdx i q 1).val = (q ⟨0, by decide⟩).val :=
  dot_S256x12288_S12288x64_S256x64_1_0_0_1_n_n.lhsIdx_val_of_single rfl i q
theorem rhs_shared (i : S256x64.Idx) (q : dot_S256x12288_S12288x64_S256x64_1_0_0_1_n_n.contr.Idx) :
    (dot_S256x12288_S12288x64_S256x64_1_0_0_1_n_n.rhsIdx i q 0).val = (q ⟨0, by decide⟩).val :=
  dot_S256x12288_S12288x64_S256x64_1_0_0_1_n_n.rhsIdx_val_of_single rfl i q
theorem rhs_col (i : S256x64.Idx) (q : dot_S256x12288_S12288x64_S256x64_1_0_0_1_n_n.contr.Idx) :
    (dot_S256x12288_S12288x64_S256x64_1_0_0_1_n_n.rhsIdx i q 1).val = (i 1).val := by
  unfold DotDims.rhsIdx
  rw [dif_neg (show ¬(1 : Fin S12288x64.rank) ∈ dot_S256x12288_S12288x64_S256x64_1_0_0_1_n_n.rhsBatch by decide), dif_pos (show (1 : Fin S12288x64.rank) ∈ dot_S256x12288_S12288x64_S256x64_1_0_0_1_n_n.rhsNonContracting by decide)]
  rfl

/-- Into a zero accumulator the matrix unit leaves, at entry (r, c), the sum over the 12288 shared positions of
    row r of the adjacency block against column c of the layer's array. -/
theorem unit_apply (l : FVec Ideal S256x12288 .bf16) (r : FVec Ideal S12288x64 .bf16) (p : Fin 256) (c : Fin 64) :
    matmul dot_S256x12288_S12288x64_S256x64_1_0_0_1_n_n none l r (constant S256x64 .f32 0x00000000#32) (ix2 p c)
      = ∑ k : Fin 12288, l (ix2 p k) * r (ix2 k c) := by
  simp only [matmul]
  rw [Ideal.matmul_constant_zero_apply, ← Equiv.sum_comp (contrEquiv1 dot_S256x12288_S12288x64_S256x64_1_0_0_1_n_n 12288 rfl rfl).symm]
  refine Finset.sum_congr rfl fun k _ => ?_
  have hk := contrEquiv1_symm_val dot_S256x12288_S12288x64_S256x64_1_0_0_1_n_n 12288 rfl rfl k
  have el : dot_S256x12288_S12288x64_S256x64_1_0_0_1_n_n.lhsIdx (ix2 p c) ((contrEquiv1 dot_S256x12288_S12288x64_S256x64_1_0_0_1_n_n 12288 rfl rfl).symm k) = ix2 p k := funext fun a => Fin.ext (by
    match a with
    | ⟨0, _⟩ => exact lhs_row _ _
    | ⟨1, _⟩ => exact (lhs_shared _ _).trans hk)
  have er : dot_S256x12288_S12288x64_S256x64_1_0_0_1_n_n.rhsIdx (ix2 p c) ((contrEquiv1 dot_S256x12288_S12288x64_S256x64_1_0_0_1_n_n 12288 rfl rfl).symm k) = ix2 k c := funext fun a => Fin.ext (by
    match a with
    | ⟨0, _⟩ => exact (rhs_shared _ _).trans hk
    | ⟨1, _⟩ => exact rhs_col _ _)
  rw [el, er]

/-- What the body stores, at entry (r, c) of its block: the 12288-term sum floored at zero (the zero it compares
    with is the float word 0, the extended real 0; the changes of float format and the same-shape cast are the identity). -/
theorem stored_apply (a : Vec Ideal S256x12288 .f32) (h : Vec Ideal S12288x64 .bf16) (p : Fin 256) (c : Fin 64) :
    k1_pay1 (F := Ideal) a h (ix2 p c) = max (∑ k : Fin 12288, a (ix2 p k) * h (ix2 k c)) 0 := by
  unfold k1_pay1
  rw [shapeCast_self]
  refine Eq.trans ?_ (congrArg₂ max (unit_apply _ _ p c) Ideal.ofBits_zero_f32)
  rfl

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

theorem point_lt (t : Fin cfg1.N) : t.val < 48 := lt_of_lt_of_eq t.isLt N_1

/-- The index maps over the 48 points: the adjacency rows and the output rows move with the point, 256 rows a block;
    the layer's array and every column block stay at 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The two arrays the region reads, as it finds them. -/
abbrev aArr (c : Dev nD) : Vec Ideal S12288x12288 .f32 := V c main_arg1
abbrev hArr (c : Dev nD) : Vec Ideal S12288x64 .bf16 := V c main_v1

/-- What the region leaves in its output array: the adjacency matrix times the layer's array, floored at zero. -/
abbrev result (c : Dev nD) : Buf (Elt Ideal) ((c : Thread nD τ).loc main_v2) :=
  floorZero (matMul (n := 12288) (k := 12288) (d := 64) (aArr V c) (hArr V c))

/-- Point t's adjacency block is rows 256 t … 256 t + 255 of the adjacency matrix. -/
theorem a_block (c : Dev nD) (t : Fin cfg1.N) (p : Fin 256) (k : Fin 12288) :
    (iblk1 V c 0 t : Vec Ideal S256x12288 .f32) (ix2 p k)
      = aArr V c (ix2 (⟨t.val * 256 + p.val, by have := point_lt t; omega⟩ : Fin 12288) k) := by
  obtain ⟨e0, e1, -⟩ := idx_facts t
  unfold iblk1
  rw [View.read_apply]
  show V c main_arg1 _ = V c main_arg1 _
  refine congrArg (V c main_arg1) (funext fun a => Fin.ext ?_)
  match a with
  | ⟨0, _⟩ => show win1_0.index t (0 : Fin 2) * 256 + 1 * p.val = t.val * 256 + p.val; rw [e0]; omega
  | ⟨1, _⟩ => show win1_0.index t (1 : Fin 2) * 12288 + 1 * k.val = k.val; rw [e1]; omega

/-- The layer's block is the whole layer array at every point. -/
theorem h_block (c : Dev nD) (t : Fin cfg1.N) (k : Fin 12288) (q : Fin 64) :
    (iblk1 V c 1 t : Vec Ideal S12288x64 .bf16) (ix2 k q) = hArr V c (ix2 k q) := by
  obtain ⟨-, -, e2, e3, -⟩ := idx_facts t
  unfold iblk1
  rw [View.read_apply]
  show V c main_v1 _ = V c main_v1 _
  refine congrArg (V c main_v1) (funext fun a => Fin.ext ?_)
  match a with
  | ⟨0, _⟩ => show win1_1.index t (0 : Fin 2) * 12288 + 1 * k.val = k.val; rw [e2]; omega
  | ⟨1, _⟩ => show win1_1.index t (1 : Fin 2) * 64 + 1 * q.val = q.val; rw [e3]; omega

/-- What point t writes back is block t of the floored product. -/
theorem flushed_eq (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero hz]
  simp only [View.ld_unit_zero (S := S256x12288) hz, View.ld_unit_zero (S := S12288x64) hz]
  funext j
  obtain ⟨p, q, rfl⟩ : ∃ (p : Fin 256) (q : Fin 64), j = ix2 p q := ⟨j 0, j 1, eq_ix2 j⟩
  obtain ⟨-, -, -, -, e4, e5⟩ := idx_facts t
  have h0 : ((((cfg1.win 2).blk t).view.emb (ix2 p q)) 0).val = t.val * 256 + p.val := by
    show win1_2.index t (0 : Fin 2) * 256 + 1 * p.val = _; rw [e4]; omega
  have h1 : ((((cfg1.win 2).blk t).view.emb (ix2 p q)) 1).val = q.val := by
    show win1_2.index t (1 : Fin 2) * 64 + 1 * q.val = _; rw [e5]; omega
  rw [View.read_apply]
  show k1_pay1 (F := Ideal) (iblk1 V c 0 t) (iblk1 V c 1 t) (ix2 p q)
    = max (matMul (n := 12288) (k := 12288) (d := 64) (aArr V c) (hArr V c) (((cfg1.win 2).blk t).view.emb (ix2 p q))) 0
  refine (stored_apply (iblk1 V c 0 t) (iblk1 V c 1 t) p q).trans ?_
  rw [matMul_apply (n := 12288) (k := 12288) (d := 64) (aArr V c) (hArr V c)
    (((cfg1.win 2).blk t).view.emb (ix2 p q)) (⟨t.val * 256 + p.val, by have := point_lt t; omega⟩ : Fin 12288) q h0 h1]
  refine congrArg (max · 0) (Finset.sum_congr rfl fun k _ => ?_)
  rw [a_block V c t p k, h_block V c t k q]

/-- An index of the output array is in point t's block iff each coordinate is in the block's range on its axis. -/
theorem mem_blk (t : Fin cfg1.N) (i : S12288x64.Idx) :
    i ∈ ((cfg1.win 2).blk t).view.set ↔ ∀ a : Fin 2, win1_2.index t a * S256x64.size a ≤ (i a).val ∧ (i a).val < win1_2.index t a * S256x64.size a + S256x64.size a := by
  show i ∈ ((View.whole main_v2).slice (win1_2.rect t)).set ↔ _
  rw [View.set_slice_whole, Rect.mem_set_unit]
  exact Iff.rfl

/-- Every row r lies in the block of point r / 256, and every point writes its block back. -/
theorem covered (i : S12288x64.Idx) :
    ∃ t : Fin cfg1.N, (cfg1.win 2).flush t = true ∧ i ∈ ((cfg1.win 2).blk t).view.set := by
  have hi0 : (i 0).val < 12288 := (i 0).isLt
  have hi1 : (i 1).val < 64 := (i 1).isLt
  have hN : cfg1.N = 48 := N_1
  refine ⟨⟨(i 0).val / 256, by rw [hN]; omega⟩, flush1_2 _, ?_⟩
  obtain ⟨-, -, -, -, e4, e5⟩ := idx_facts ⟨(i 0).val / 256, by rw [hN]; omega⟩
  rw [mem_blk]
  intro a
  match a with
  | ⟨0, _⟩ =>
    show win1_2.index _ (0 : Fin 2) * 256 ≤ (i 0).val ∧ (i 0).val < win1_2.index _ (0 : Fin 2) * 256 + 256
    rw [e4]; show (i 0).val / 256 * 256 ≤ (i 0).val ∧ (i 0).val < (i 0).val / 256 * 256 + 256; omega
  | ⟨1, _⟩ =>
    show win1_2.index _ (1 : Fin 2) * 64 ≤ (i 1).val ∧ (i 1).val < win1_2.index _ (1 : Fin 2) * 64 + 64
    rw [e5]; omega

/-- The array the region leaves is the floored product of the arrays it read. -/
theorem final (c : Dev nD) : (dat1 V c).arrAt 2 cfg1.N = result V c :=
  (dat1 V c).arrAt_eq_of_cover 2 (result V c) (fun t _ => flushed_eq V c t) covered

end Array

end Cert.KernelIdeal.Agg1

end
-- ==== Proof.Dense2.lean ====
/- The second dense layer's kernel: each grid point multiplies 512 rows of the floored first layer against the
   second weight matrix and adds the bias row; the region leaves that dense layer in its output array. -/
import proofs.«119408_j20529943675404_1_alg».proof.Proof.Gen.KernelIdeal.Frame
import proofs.«119408_j20529943675404_1_alg».proof.Proof.Layers
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.Layers

/-! ## The matrix unit of the second dense layer, read at an entry -/

theorem lhs_row (i : S512x16.Idx) (q : dot_S512x64_S64x16_S512x16_1_0_0_1_n_n.contr.Idx) :
    (dot_S512x64_S64x16_S512x16_1_0_0_1_n_n.lhsIdx i q 0).val = (i 0).val := by
  unfold DotDims.lhsIdx
  rw [dif_neg (show ¬(0 : Fin S512x64.rank) ∈ dot_S512x64_S64x16_S512x16_1_0_0_1_n_n.lhsBatch by decide), dif_pos (show (0 : Fin S512x64.rank) ∈ dot_S512x64_S64x16_S512x16_1_0_0_1_n_n.lhsNonContracting by decide)]
  rfl
theorem lhs_shared (i : S512x16.Idx) (q : dot_S512x64_S64x16_S512x16_1_0_0_1_n_n.contr.Idx) :
    (dot_S512x64_S64x16_S512x16_1_0_0_1_n_n.lhsIdx i q 1).val = (q ⟨0, by decide⟩).val :=
  dot_S512x64_S64x16_S512x16_1_0_0_1_n_n.lhsIdx_val_of_single rfl i q
theorem rhs_shared (i : S512x16.Idx) (q : dot_S512x64_S64x16_S512x16_1_0_0_1_n_n.contr.Idx) :
    (dot_S512x64_S64x16_S512x16_1_0_0_1_n_n.rhsIdx i q 0).val = (q ⟨0, by decide⟩).val :=
  dot_S512x64_S64x16_S512x16_1_0_0_1_n_n.rhsIdx_val_of_single rfl i q
theorem rhs_col (i : S512x16.Idx) (q : dot_S512x64_S64x16_S512x16_1_0_0_1_n_n.contr.Idx) :
    (dot_S512x64_S64x16_S512x16_1_0_0_1_n_n.rhsIdx i q 1).val = (i 1).val := by
  unfold DotDims.rhsIdx
  rw [dif_neg (show ¬(1 : Fin S64x16.rank) ∈ dot_S512x64_S64x16_S512x16_1_0_0_1_n_n.rhsBatch by decide), dif_pos (show (1 : Fin S64x16.rank) ∈ dot_S512x64_S64x16_S512x16_1_0_0_1_n_n.rhsNonContracting by decide)]
  rfl

/-- Into a zero accumulator the matrix unit leaves, at entry (r, c), the sum over the 64 shared positions of
    row r of the left block against column c of the right. -/
theorem unit_apply (l : FVec Ideal S512x64 .bf16) (r : FVec Ideal S64x16 .bf16) (p : Fin 512) (c : Fin 16) :
    matmul dot_S512x64_S64x16_S512x16_1_0_0_1_n_n none l r (constant S512x16 .f32 0x00000000#32) (ix2 p c)
      = ∑ k : Fin 64, l (ix2 p k) * r (ix2 k c) := by
  simp only [matmul]
  rw [Ideal.matmul_constant_zero_apply, ← Equiv.sum_comp (contrEquiv1 dot_S512x64_S64x16_S512x16_1_0_0_1_n_n 64 rfl rfl).symm]
  refine Finset.sum_congr rfl fun k _ => ?_
  have hk := contrEquiv1_symm_val dot_S512x64_S64x16_S512x16_1_0_0_1_n_n 64 rfl rfl k
  have el : dot_S512x64_S64x16_S512x16_1_0_0_1_n_n.lhsIdx (ix2 p c) ((contrEquiv1 dot_S512x64_S64x16_S512x16_1_0_0_1_n_n 64 rfl rfl).symm k) = ix2 p k := funext fun a => Fin.ext (by
    match a with
    | ⟨0, _⟩ => exact lhs_row _ _
    | ⟨1, _⟩ => exact (lhs_shared _ _).trans hk)
  have er : dot_S512x64_S64x16_S512x16_1_0_0_1_n_n.rhsIdx (ix2 p c) ((contrEquiv1 dot_S512x64_S64x16_S512x16_1_0_0_1_n_n 64 rfl rfl).symm k) = ix2 k c := funext fun a => Fin.ext (by
    match a with
    | ⟨0, _⟩ => exact (rhs_shared _ _).trans hk
    | ⟨1, _⟩ => exact rhs_col _ _)
  rw [el, er]

/-- The bias block, a single row, spread over the 512 rows: entry (r, c) is the row's entry c. -/
theorem bias_apply (b : FVec Ideal S1x16 .f32) (p : Fin 512) (c : Fin 16) :
    broadcastTo S512x16 (shapeCast S1x16 b shapeCasts_S1x16_S1x16) broadcasts_S1x16_S512x16 (ix2 p c) = b (ix2 (0 : Fin 1) c) := by
  rw [shapeCast_self]
  exact broadcastTo_apply b broadcasts_S1x16_S512x16 (ix2 p c) (ix2 (0 : Fin 1) c) (fun a => by
    match a with
    | ⟨0, _⟩ => show (0 : Nat) = if (1 : Nat) = 1 then 0 else _; rw [if_pos rfl]
    | ⟨1, _⟩ => show c.val = if (16 : Nat) = 1 then 0 else c.val; rw [if_neg (by decide)])

/-- What the body stores, at entry (r, c) of its block: the 64-term sum plus the bias entry c
    (the same-shape cast of the left block and the changes of float format are the identity). -/
theorem stored_apply (x : Vec Ideal S512x64 .bf16) (w : Vec Ideal S64x16 .f32) (b : Vec Ideal S1x16 .f32) (p : Fin 512) (c : Fin 16) :
    k2_pay1 (F := Ideal) x w b (ix2 p c) = (∑ k : Fin 64, x (ix2 p k) * w (ix2 k c)) + b (ix2 (0 : Fin 1) c) := by
  unfold k2_pay1
  rw [shapeCast_self x]
  refine (congrArg₂ (· + ·) (unit_apply _ _ p c) (bias_apply b p c)).trans ?_
  rfl

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

theorem point_lt (t : Fin cfg2.N) : t.val < 24 := lt_of_lt_of_eq t.isLt N_2

/-- The index maps over the 24 points: the input rows and the output rows move with the point, 512 rows a block;
    the weights, the bias and every column block stay at 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The three arrays the region reads, as it finds them. -/
abbrev xArr (c : Dev nD) : Vec Ideal S12288x64 .bf16 := V c main_v2
abbrev wArr (c : Dev nD) : Vec Ideal S64x16 .f32 := V c main_arg4
abbrev bArr (c : Dev nD) : Vec Ideal S1x16 .f32 := V c main_v3

/-- What the region leaves in its output array: the dense layer of the three arrays. -/
abbrev result (c : Dev nD) : Buf (Elt Ideal) ((c : Thread nD τ).loc main_v4) :=
  dense (n := 12288) (k := 64) (d := 16) (xArr V c) (wArr V c) (rowOf (bArr V c))

/-- Point t's input block is rows 512 t … 512 t + 511 of the input array. -/
theorem x_block (c : Dev nD) (t : Fin cfg2.N) (p : Fin 512) (k : Fin 64) :
    (iblk2 V c 0 t : Vec Ideal S512x64 .bf16) (ix2 p k)
      = xArr V c (ix2 (⟨t.val * 512 + p.val, by have := point_lt t; omega⟩ : Fin 12288) k) := by
  obtain ⟨e0, e1, -⟩ := idx_facts t
  unfold iblk2
  rw [View.read_apply]
  show V c main_v2 _ = V c main_v2 _
  refine congrArg (V c main_v2) (funext fun a => Fin.ext ?_)
  match a with
  | ⟨0, _⟩ => show win2_0.index t (0 : Fin 2) * 512 + 1 * p.val = t.val * 512 + p.val; rw [e0]; omega
  | ⟨1, _⟩ => show win2_0.index t (1 : Fin 2) * 64 + 1 * k.val = k.val; rw [e1]; omega

/-- The weights' block is the whole weight array at every point. -/
theorem w_block (c : Dev nD) (t : Fin cfg2.N) (k : Fin 64) (q : Fin 16) :
    (iblk2 V c 1 t : Vec Ideal S64x16 .f32) (ix2 k q) = wArr V c (ix2 k q) := by
  obtain ⟨-, -, e2, e3, -⟩ := idx_facts t
  unfold iblk2
  rw [View.read_apply]
  show V c main_arg4 _ = V c main_arg4 _
  refine congrArg (V c main_arg4) (funext fun a => Fin.ext ?_)
  match a with
  | ⟨0, _⟩ => show win2_1.index t (0 : Fin 2) * 64 + 1 * k.val = k.val; rw [e2]; omega
  | ⟨1, _⟩ => show win2_1.index t (1 : Fin 2) * 16 + 1 * q.val = q.val; rw [e3]; omega

/-- The bias block is the whole one-row bias array at every point. -/
theorem b_block (c : Dev nD) (t : Fin cfg2.N) (q : Fin 16) :
    (iblk2 V c 2 t : Vec Ideal S1x16 .f32) (ix2 (0 : Fin 1) q) = bArr V c (ix2 (0 : Fin 1) q) := by
  obtain ⟨-, -, -, -, e4, e5, -⟩ := idx_facts t
  unfold iblk2
  rw [View.read_apply]
  show V c main_v3 _ = V c main_v3 _
  refine congrArg (V c main_v3) (funext fun a => Fin.ext ?_)
  match a with
  | ⟨0, _⟩ => show win2_2.index t (0 : Fin 2) * 1 + 1 * 0 = 0; rw [e4]
  | ⟨1, _⟩ => show win2_2.index t (1 : Fin 2) * 16 + 1 * q.val = q.val; rw [e5]; omega

/-- What point t writes back is block t of the dense layer. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S512x64) hz, View.ld_unit_zero (S := S64x16) hz, View.ld_unit_zero (S := S1x16) hz]
  funext j
  obtain ⟨p, q, rfl⟩ : ∃ (p : Fin 512) (q : Fin 16), j = ix2 p q := ⟨j 0, j 1, eq_ix2 j⟩
  obtain ⟨-, -, -, -, -, -, e6, e7⟩ := idx_facts t
  have h0 : ((((cfg2.win 3).blk t).view.emb (ix2 p q)) 0).val = t.val * 512 + p.val := by
    show win2_3.index t (0 : Fin 2) * 512 + 1 * p.val = _; rw [e6]; omega
  have h1 : ((((cfg2.win 3).blk t).view.emb (ix2 p q)) 1).val = q.val := by
    show win2_3.index t (1 : Fin 2) * 16 + 1 * q.val = _; rw [e7]; omega
  rw [View.read_apply]
  show k2_pay1 (F := Ideal) (iblk2 V c 0 t) (iblk2 V c 1 t) (iblk2 V c 2 t) (ix2 p q)
    = result V c (((cfg2.win 3).blk t).view.emb (ix2 p q))
  refine (stored_apply (iblk2 V c 0 t) (iblk2 V c 1 t) (iblk2 V c 2 t) p q).trans ?_
  refine Eq.trans ?_ (dense_apply (n := 12288) (k := 64) (d := 16) (xArr V c) (wArr V c) (rowOf (bArr V c))
    (((cfg2.win 3).blk t).view.emb (ix2 p q)) (⟨t.val * 512 + p.val, by have := point_lt t; omega⟩ : Fin 12288) q h0 h1).symm
  rw [b_block V c t q, rowOf_apply]
  refine congrArg (· + bArr V c (ix2 (0 : Fin 1) q)) (Finset.sum_congr rfl fun k _ => ?_)
  rw [x_block V c t p k, w_block V c t k q]

/-- An index of the output array is in point t's block iff each coordinate is in the block's range on its axis. -/
theorem mem_blk (t : Fin cfg2.N) (i : S12288x16.Idx) :
    i ∈ ((cfg2.win 3).blk t).view.set ↔ ∀ a : Fin 2, win2_3.index t a * S512x16.size a ≤ (i a).val ∧ (i a).val < win2_3.index t a * S512x16.size a + S512x16.size a := by
  show i ∈ ((View.whole main_v4).slice (win2_3.rect t)).set ↔ _
  rw [View.set_slice_whole, Rect.mem_set_unit]
  exact Iff.rfl

/-- Every row r lies in the block of point r / 512, and every point writes its block back. -/
theorem covered (i : S12288x16.Idx) :
    ∃ t : Fin cfg2.N, (cfg2.win 3).flush t = true ∧ i ∈ ((cfg2.win 3).blk t).view.set := by
  have hi0 : (i 0).val < 12288 := (i 0).isLt
  have hi1 : (i 1).val < 16 := (i 1).isLt
  have hN : cfg2.N = 24 := N_2
  refine ⟨⟨(i 0).val / 512, by rw [hN]; omega⟩, flush2_3 _, ?_⟩
  obtain ⟨-, -, -, -, -, -, e6, e7⟩ := idx_facts ⟨(i 0).val / 512, by rw [hN]; omega⟩
  rw [mem_blk]
  intro a
  match a with
  | ⟨0, _⟩ =>
    show win2_3.index _ (0 : Fin 2) * 512 ≤ (i 0).val ∧ (i 0).val < win2_3.index _ (0 : Fin 2) * 512 + 512
    rw [e6]; show (i 0).val / 512 * 512 ≤ (i 0).val ∧ (i 0).val < (i 0).val / 512 * 512 + 512; omega
  | ⟨1, _⟩ =>
    show win2_3.index _ (1 : Fin 2) * 16 ≤ (i 1).val ∧ (i 1).val < win2_3.index _ (1 : Fin 2) * 16 + 16
    rw [e7]; omega

/-- The array the region leaves is the dense layer of the arrays it read. -/
theorem final (c : Dev nD) : (dat2 V c).arrAt 3 cfg2.N = result V c :=
  (dat2 V c).arrAt_eq_of_cover 3 (result V c) (fun t _ => flushed_eq V c t) covered

end Array

end Cert.KernelIdeal.Dense2

end
-- ==== Proof.Agg2.lean ====
/- The second aggregation's kernel: each grid point multiplies 256 rows of the adjacency matrix against the whole
   second-layer array; the region leaves that product in the result array. -/
import proofs.«119408_j20529943675404_1_alg».proof.Proof.Gen.KernelIdeal.Frame
import proofs.«119408_j20529943675404_1_alg».proof.Proof.Layers
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Agg2

open Cert.KernelIdeal Cert.KernelIdeal.Gen Cert.Layers

/-! ## The matrix unit of the aggregation, read at an entry -/

theorem lhs_row (i : S256x16.Idx) (q : dot_S256x12288_S12288x16_S256x16_1_0_0_1_n_n.contr.Idx) :
    (dot_S256x12288_S12288x16_S256x16_1_0_0_1_n_n.lhsIdx i q 0).val = (i 0).val := by
  unfold DotDims.lhsIdx
  rw [dif_neg (show ¬(0 : Fin S256x12288.rank) ∈ dot_S256x12288_S12288x16_S256x16_1_0_0_1_n_n.lhsBatch by decide), dif_pos (show (0 : Fin S256x12288.rank) ∈ dot_S256x12288_S12288x16_S256x16_1_0_0_1_n_n.lhsNonContracting by decide)]
  rfl
theorem lhs_shared (i : S256x16.Idx) (q : dot_S256x12288_S12288x16_S256x16_1_0_0_1_n_n.contr.Idx) :
    (dot_S256x12288_S12288x16_S256x16_1_0_0_1_n_n.lhsIdx i q 1).val = (q ⟨0, by decide⟩).val :=
  dot_S256x12288_S12288x16_S256x16_1_0_0_1_n_n.lhsIdx_val_of_single rfl i q
theorem rhs_shared (i : S256x16.Idx) (q : dot_S256x12288_S12288x16_S256x16_1_0_0_1_n_n.contr.Idx) :
    (dot_S256x12288_S12288x16_S256x16_1_0_0_1_n_n.rhsIdx i q 0).val = (q ⟨0, by decide⟩).val :=
  dot_S256x12288_S12288x16_S256x16_1_0_0_1_n_n.rhsIdx_val_of_single rfl i q
theorem rhs_col (i : S256x16.Idx) (q : dot_S256x12288_S12288x16_S256x16_1_0_0_1_n_n.contr.Idx) :
    (dot_S256x12288_S12288x16_S256x16_1_0_0_1_n_n.rhsIdx i q 1).val = (i 1).val := by
  unfold DotDims.rhsIdx
  rw [dif_neg (show ¬(1 : Fin S12288x16.rank) ∈ dot_S256x12288_S12288x16_S256x16_1_0_0_1_n_n.rhsBatch by decide), dif_pos (show (1 : Fin S12288x16.rank) ∈ dot_S256x12288_S12288x16_S256x16_1_0_0_1_n_n.rhsNonContracting by decide)]
  rfl

/-- Into a zero accumulator the matrix unit leaves, at entry (r, c), the sum over the 12288 shared positions of
    row r of the adjacency block against column c of the layer's array. -/
theorem unit_apply (l : FVec Ideal S256x12288 .bf16) (r : FVec Ideal S12288x16 .bf16) (p : Fin 256) (c : Fin 16) :
    matmul dot_S256x12288_S12288x16_S256x16_1_0_0_1_n_n none l r (constant S256x16 .f32 0x00000000#32) (ix2 p c)
      = ∑ k : Fin 12288, l (ix2 p k) * r (ix2 k c) := by
  simp only [matmul]
  rw [Ideal.matmul_constant_zero_apply, ← Equiv.sum_comp (contrEquiv1 dot_S256x12288_S12288x16_S256x16_1_0_0_1_n_n 12288 rfl rfl).symm]
  refine Finset.sum_congr rfl fun k _ => ?_
  have hk := contrEquiv1_symm_val dot_S256x12288_S12288x16_S256x16_1_0_0_1_n_n 12288 rfl rfl k
  have el : dot_S256x12288_S12288x16_S256x16_1_0_0_1_n_n.lhsIdx (ix2 p c) ((contrEquiv1 dot_S256x12288_S12288x16_S256x16_1_0_0_1_n_n 12288 rfl rfl).symm k) = ix2 p k := funext fun a => Fin.ext (by
    match a with
    | ⟨0, _⟩ => exact lhs_row _ _
    | ⟨1, _⟩ => exact (lhs_shared _ _).trans hk)
  have er : dot_S256x12288_S12288x16_S256x16_1_0_0_1_n_n.rhsIdx (ix2 p c) ((contrEquiv1 dot_S256x12288_S12288x16_S256x16_1_0_0_1_n_n 12288 rfl rfl).symm k) = ix2 k c := funext fun a => Fin.ext (by
    match a with
    | ⟨0, _⟩ => exact (rhs_shared _ _).trans hk
    | ⟨1, _⟩ => exact rhs_col _ _)
  rw [el, er]

/-- What the body stores, at entry (r, c) of its block: the 12288-term sum
    (the change of float format and the same-shape cast are the identity). -/
theorem stored_apply (a : Vec Ideal S256x12288 .f32) (h : Vec Ideal S12288x16 .bf16) (p : Fin 256) (c : Fin 16) :
    k3_pay1 (F := Ideal) a h (ix2 p c) = ∑ k : Fin 12288, a (ix2 p k) * h (ix2 k c) := by
  unfold k3_pay1
  rw [shapeCast_self]
  refine (unit_apply _ _ p c).trans ?_
  rfl

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

theorem point_lt (t : Fin cfg3.N) : t.val < 48 := lt_of_lt_of_eq t.isLt N_3

/-- The index maps over the 48 points: the adjacency rows and the output rows move with the point, 256 rows a block;
    the layer's array and every column block stay at 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The two arrays the region reads, as it finds them. -/
abbrev aArr (c : Dev nD) : Vec Ideal S12288x12288 .f32 := V c main_arg1
abbrev hArr (c : Dev nD) : Vec Ideal S12288x16 .bf16 := V c main_v4

/-- What the region leaves in its output array: the adjacency matrix times the layer's array. -/
abbrev result (c : Dev nD) : Buf (Elt Ideal) ((c : Thread nD τ).loc main_v5) :=
  matMul (n := 12288) (k := 12288) (d := 16) (aArr V c) (hArr V c)

/-- Point t's adjacency block is rows 256 t … 256 t + 255 of the adjacency matrix. -/
theorem a_block (c : Dev nD) (t : Fin cfg3.N) (p : Fin 256) (k : Fin 12288) :
    (iblk3 V c 0 t : Vec Ideal S256x12288 .f32) (ix2 p k)
      = aArr V c (ix2 (⟨t.val * 256 + p.val, by have := point_lt t; omega⟩ : Fin 12288) k) := by
  obtain ⟨e0, e1, -⟩ := idx_facts t
  unfold iblk3
  rw [View.read_apply]
  show V c main_arg1 _ = V c main_arg1 _
  refine congrArg (V c main_arg1) (funext fun a => Fin.ext ?_)
  match a with
  | ⟨0, _⟩ => show win3_0.index t (0 : Fin 2) * 256 + 1 * p.val = t.val * 256 + p.val; rw [e0]; omega
  | ⟨1, _⟩ => show win3_0.index t (1 : Fin 2) * 12288 + 1 * k.val = k.val; rw [e1]; omega

/-- The layer's block is the whole layer array at every point. -/
theorem h_block (c : Dev nD) (t : Fin cfg3.N) (k : Fin 12288) (q : Fin 16) :
    (iblk3 V c 1 t : Vec Ideal S12288x16 .bf16) (ix2 k q) = hArr V c (ix2 k q) := by
  obtain ⟨-, -, e2, e3, -⟩ := idx_facts t
  unfold iblk3
  rw [View.read_apply]
  show V c main_v4 _ = V c main_v4 _
  refine congrArg (V c main_v4) (funext fun a => Fin.ext ?_)
  match a with
  | ⟨0, _⟩ => show win3_1.index t (0 : Fin 2) * 12288 + 1 * k.val = k.val; rw [e2]; omega
  | ⟨1, _⟩ => show win3_1.index t (1 : Fin 2) * 16 + 1 * q.val = q.val; rw [e3]; omega

/-- What point t writes back is block t of the product. -/
theorem flushed_eq (c : Dev nD) (t : Fin cfg3.N) :
    (dat3 V c).flushed 2 t = ((cfg3.win 2).blk t).view.read (Elt Ideal) (result V c) := by
  show (cfg3.win 2).cut (grid3.coords t) ((dat3 V c).after 2 t) = _
  rw [after3_2]
  unfold out3_2
  rw [View.canon_unit_zero hz]
  simp only [View.ld_unit_zero (S := S256x12288) hz, View.ld_unit_zero (S := S12288x16) hz]
  funext j
  obtain ⟨p, q, rfl⟩ : ∃ (p : Fin 256) (q : Fin 16), j = ix2 p q := ⟨j 0, j 1, eq_ix2 j⟩
  obtain ⟨-, -, -, -, e4, e5⟩ := idx_facts t
  have h0 : ((((cfg3.win 2).blk t).view.emb (ix2 p q)) 0).val = t.val * 256 + p.val := by
    show win3_2.index t (0 : Fin 2) * 256 + 1 * p.val = _; rw [e4]; omega
  have h1 : ((((cfg3.win 2).blk t).view.emb (ix2 p q)) 1).val = q.val := by
    show win3_2.index t (1 : Fin 2) * 16 + 1 * q.val = _; rw [e5]; omega
  rw [View.read_apply]
  show k3_pay1 (F := Ideal) (iblk3 V c 0 t) (iblk3 V c 1 t) (ix2 p q)
    = matMul (n := 12288) (k := 12288) (d := 16) (aArr V c) (hArr V c) (((cfg3.win 2).blk t).view.emb (ix2 p q))
  refine (stored_apply (iblk3 V c 0 t) (iblk3 V c 1 t) p q).trans ?_
  rw [matMul_apply (n := 12288) (k := 12288) (d := 16) (aArr V c) (hArr V c)
    (((cfg3.win 2).blk t).view.emb (ix2 p q)) (⟨t.val * 256 + p.val, by have := point_lt t; omega⟩ : Fin 12288) q h0 h1]
  refine Finset.sum_congr rfl fun k _ => ?_
  rw [a_block V c t p k, h_block V c t k q]

/-- An index of the output array is in point t's block iff each coordinate is in the block's range on its axis. -/
theorem mem_blk (t : Fin cfg3.N) (i : S12288x16.Idx) :
    i ∈ ((cfg3.win 2).blk t).view.set ↔ ∀ a : Fin 2, win3_2.index t a * S256x16.size a ≤ (i a).val ∧ (i a).val < win3_2.index t a * S256x16.size a + S256x16.size a := by
  show i ∈ ((View.whole main_v5).slice (win3_2.rect t)).set ↔ _
  rw [View.set_slice_whole, Rect.mem_set_unit]
  exact Iff.rfl

/-- Every row r lies in the block of point r / 256, and every point writes its block back. -/
theorem covered (i : S12288x16.Idx) :
    ∃ t : Fin cfg3.N, (cfg3.win 2).flush t = true ∧ i ∈ ((cfg3.win 2).blk t).view.set := by
  have hi0 : (i 0).val < 12288 := (i 0).isLt
  have hi1 : (i 1).val < 16 := (i 1).isLt
  have hN : cfg3.N = 48 := N_3
  refine ⟨⟨(i 0).val / 256, by rw [hN]; omega⟩, flush3_2 _, ?_⟩
  obtain ⟨-, -, -, -, e4, e5⟩ := idx_facts ⟨(i 0).val / 256, by rw [hN]; omega⟩
  rw [mem_blk]
  intro a
  match a with
  | ⟨0, _⟩ =>
    show win3_2.index _ (0 : Fin 2) * 256 ≤ (i 0).val ∧ (i 0).val < win3_2.index _ (0 : Fin 2) * 256 + 256
    rw [e4]; show (i 0).val / 256 * 256 ≤ (i 0).val ∧ (i 0).val < (i 0).val / 256 * 256 + 256; omega
  | ⟨1, _⟩ =>
    show win3_2.index _ (1 : Fin 2) * 16 ≤ (i 1).val ∧ (i 1).val < win3_2.index _ (1 : Fin 2) * 16 + 16
    rw [e5]; omega

/-- The array the region leaves is the product of the arrays it read. -/
theorem final (c : Dev nD) : (dat3 V c).arrAt 2 cfg3.N = result V c :=
  (dat3 V c).arrAt_eq_of_cover 2 (result V c) (fun t _ => flushed_eq V c t) covered

end Array

end Cert.KernelIdeal.Agg2

end
-- ==== Proof.KernelValue.lean ====
/- The four regions chained: the array each region leaves is the next one's input, and the arguments are read at
   every boundary as they were launched (no region and no host operation writes them). So the result buffer, at the
   contents of the last boundary, is the two graph-convolution layers of the six argument arrays. The two host
   operations between the regions only give each bias vector the shape of a one-row matrix. -/
import proofs.«119408_j20529943675404_1_alg».proof.Proof.Gen.KernelIdeal.Frame
import proofs.«119408_j20529943675404_1_alg».proof.Proof.Layers
import proofs.«119408_j20529943675404_1_alg».proof.Proof.Dense1
import proofs.«119408_j20529943675404_1_alg».proof.Proof.Agg1
import proofs.«119408_j20529943675404_1_alg».proof.Proof.Dense2
import proofs.«119408_j20529943675404_1_alg».proof.Proof.Agg2
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Chain

open Cert.KernelIdeal Cert.KernelIdeal.Gen Cert.Layers

variable (m : (ℓ : Loc nD τ sig) → Buf (Elt Ideal) ℓ) (ρ : Dev nD → PrngReg)

/-! ## The arguments, as extended-real arrays -/

abbrev argX (c : Dev nD) : (⟨2, ![12288, 500]⟩ : Shape).Idx → EReal := m ((c : Thread nD τ).loc main_arg0)
abbrev argA (c : Dev nD) : (⟨2, ![12288, 12288]⟩ : Shape).Idx → EReal := m ((c : Thread nD τ).loc main_arg1)
abbrev argW1 (c : Dev nD) : (⟨2, ![500, 64]⟩ : Shape).Idx → EReal := m ((c : Thread nD τ).loc main_arg2)
abbrev argB1 (c : Dev nD) : (⟨1, ![64]⟩ : Shape).Idx → EReal := m ((c : Thread nD τ).loc main_arg3)
abbrev argW2 (c : Dev nD) : (⟨2, ![64, 16]⟩ : Shape).Idx → EReal := m ((c : Thread nD τ).loc main_arg4)
abbrev argB2 (c : Dev nD) : (⟨1, ![16]⟩ : Shape).Idx → EReal := m ((c : Thread nD τ).loc main_arg5)

/-! ## The host operations: each writes one buffer, the one-row form of a bias vector -/

/-- The first host stretch writes only the first bias's one-row buffer. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second host stretch writes only the second bias's one-row buffer. -/
theorem W4_of_ne (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- A vector given the shape of a one-row matrix, read back as that row, is the vector. -/
theorem rowOf_shapeCast {d : Nat} (b : (⟨1, ![d]⟩ : Shape).Idx → EReal) (h : (⟨1, ![d]⟩ : Shape).ShapeCasts ⟨2, ![1, d]⟩) :
    rowOf (shapeCast (⟨2, ![1, d]⟩ : Shape) b h) = b := by
  funext j
  show shapeCast _ b h (ix2 (0 : Fin 1) (⟨(j 0).val, (j 0).isLt⟩ : Fin d)) = b j
  refine shapeCast_apply b h _ j ?_
  rw [Shape.rowMajor_val_one, Shape.rowMajor_val_two]
  show (j 0).val = 0 * d + (j 0).val
  omega

/-! ## Region 0: the first dense layer -/

theorem x_at1 (c : Dev nD) : (V1 m ρ c main_arg0 : S12288x500.Idx → EReal) = argX m c :=
  W1_of_ne m ρ c main_arg0 (by decide)
theorem w1_at1 (c : Dev nD) : (V1 m ρ c main_arg2 : S500x64.Idx → EReal) = argW1 m c :=
  W1_of_ne m ρ c main_arg2 (by decide)
theorem b1_at1 (c : Dev nD) : (V1 m ρ c main_v0 : S1x64.Idx → EReal)
    = shapeCast S1x64 (argB1 m c) shapeCasts_S64_S1x64 := by
  show StableHlo.after hostOps0 (W0 m ρ c) (Proc.devRef .tc main_v0) = _
  after_results
  rfl

/-- The first region leaves the first dense layer of the arguments. -/
theorem dense1_eq (c : Dev nD) : (V2 m ρ c main_v1 : S12288x64.Idx → EReal)
    = dense (argX m c) (argW1 m c) (argB1 m c) := by
  have e : W2 m ρ c (Proc.devRef .tc main_v1) = (dat0 (V1 m ρ) c).arrAt 3 cfg0.N := W2_arr m ρ c 3
  show W2 m ρ c (Proc.devRef .tc main_v1) = _
  rw [e, Dense1.final]
  show dense (n := 12288) (k := 500) (d := 64) (V1 m ρ c main_arg0) (V1 m ρ c main_arg2) (rowOf (V1 m ρ c main_v0)) = _
  rw [x_at1, w1_at1, b1_at1, rowOf_shapeCast]

/-! ## Region 1: the first aggregation, floored at zero -/

theorem a_at2 (c : Dev nD) : (V2 m ρ c main_arg1 : S12288x12288.Idx → EReal) = argA m c :=
  (W2_of_ne m ρ c main_arg1 (by decide)).trans (W1_of_ne m ρ c main_arg1 (by decide))

/-- The second region leaves the adjacency matrix times the first dense layer, floored at zero. -/
theorem hidden_eq (c : Dev nD) : (V3 m ρ c main_v2 : S12288x64.Idx → EReal)
    = floorZero (matMul (argA m c) (dense (argX m c) (argW1 m c) (argB1 m c))) := by
  have e : W3 m ρ c (Proc.devRef .tc main_v2) = (dat1 (V2 m ρ) c).arrAt 2 cfg1.N := W3_arr m ρ c 2
  show W3 m ρ c (Proc.devRef .tc main_v2) = _
  rw [e, Agg1.final]
  show floorZero (matMul (n := 12288) (k := 12288) (d := 64) (V2 m ρ c main_arg1) (V2 m ρ c main_v1)) = _
  rw [a_at2, dense1_eq]

/-! ## Region 2: the second dense layer -/

theorem h_at4 (c : Dev nD) : (V4 m ρ c main_v2 : S12288x64.Idx → EReal) = V3 m ρ c main_v2 :=
  W4_of_ne m ρ c main_v2 (by decide)
theorem w2_at4 (c : Dev nD) : (V4 m ρ c main_arg4 : S64x16.Idx → EReal) = argW2 m c :=
  (W4_of_ne m ρ c main_arg4 (by decide)).trans ((W3_of_ne m ρ c main_arg4 (by decide)).trans
    ((W2_of_ne m ρ c main_arg4 (by decide)).trans (W1_of_ne m ρ c main_arg4 (by decide))))
theorem b2_at3 (c : Dev nD) : (W3 m ρ c (Proc.devRef .tc main_arg5) : S16.Idx → EReal) = argB2 m c :=
  (W3_of_ne m ρ c main_arg5 (by decide)).trans
    ((W2_of_ne m ρ c main_arg5 (by decide)).trans (W1_of_ne m ρ c main_arg5 (by decide)))
theorem b2_at4 (c : Dev nD) : (V4 m ρ c main_v3 : S1x16.Idx → EReal)
    = shapeCast S1x16 (argB2 m c) shapeCasts_S16_S1x16 := by
  rw [← b2_at3 m ρ c]
  show StableHlo.after hostOps2 (W3 m ρ c) (Proc.devRef .tc main_v3) = _
  after_results
  rfl

/-- The third region leaves the second dense layer of the floored first layer. -/
theorem dense2_eq (c : Dev nD) : (V5 m ρ c main_v4 : S12288x16.Idx → EReal)
    = dense (floorZero (matMul (argA m c) (dense (argX m c) (argW1 m c) (argB1 m c)))) (argW2 m c) (argB2 m c) := by
  have e : W5 m ρ c (Proc.devRef .tc main_v4) = (dat2 (V4 m ρ) c).arrAt 3 cfg2.N := W5_arr m ρ c 3
  show W5 m ρ c (Proc.devRef .tc main_v4) = _
  rw [e, Dense2.final]
  show dense (n := 12288) (k := 64) (d := 16) (V4 m ρ c main_v2) (V4 m ρ c main_arg4) (rowOf (V4 m ρ c main_v3)) = _
  rw [h_at4, hidden_eq, w2_at4, b2_at4, rowOf_shapeCast]

/-! ## Region 3: the second aggregation -/

theorem a_at5 (c : Dev nD) : (V5 m ρ c main_arg1 : S12288x12288.Idx → EReal) = argA m c :=
  (W5_of_ne m ρ c main_arg1 (by decide)).trans ((W4_of_ne m ρ c main_arg1 (by decide)).trans
    (((W3_arr m ρ c 0).trans (((dat1 (V2 m ρ) c).arrAt_in 0 rfl _).trans (A_eq1 (V2 m ρ) c 0))).trans (a_at2 m ρ c)))

/-- The result buffer at the last boundary: the two layers of the six arguments. -/
theorem result_eq (c : Dev nD) : (W6 m ρ c (Proc.devRef .tc main_v5) : S12288x16.Idx → EReal)
    = twoLayers (argX m c) (argA m c) (argW1 m c) (argB1 m c) (argW2 m c) (argB2 m c) := by
  have e : W6 m ρ c (Proc.devRef .tc main_v5) = (dat3 (V5 m ρ) c).arrAt 2 cfg3.N := W6_arr m ρ c 2
  rw [e, Agg2.final]
  show matMul (n := 12288) (k := 12288) (d := 16) (V5 m ρ c main_arg1) (V5 m ρ c main_v4) = _
  rw [a_at5, dense2_eq]
  rfl

end Cert.KernelIdeal.Chain

end
-- ==== Proof.RefValue.lean ====
/- The reference's result, stage by stage: its four `dot_general`s, two bias additions and one maximum with zero are
   the matrix products, the added rows and the floor at zero of the two graph-convolution layers. Each stage of the
   generated reading of the reference is read at an index and met with the layer operation at that index; what is
   written here are the index equations between the two spellings of "row r, shared position k" and the chaining. -/
import proofs.«119408_j20529943675404_1_alg».proof.Proof.Gen.ReferenceIdeal.Run
import proofs.«119408_j20529943675404_1_alg».proof.Proof.Gen.ReferenceIdeal.Read
import proofs.«119408_j20529943675404_1_alg».proof.Proof.Layers
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefLayers

open Cert.ReferenceIdeal Cert.ReferenceIdeal.Gen Cert.ReferenceIdeal.Read Cert.Layers

/-! ## The index functions of the generated reading are the coordinate constructors -/

theorem lidx0 (i : S12288x64.Idx) (k : Fin 500) :
    lidx_main_v0 i k = ix2 (⟨(i 0).val, idx2_lt0 i⟩ : Fin 12288) k :=
  funext fun a => Fin.ext (by match a with | ⟨0, _⟩ => rfl | ⟨1, _⟩ => rfl)
theorem ridx0 (i : S12288x64.Idx) (k : Fin 500) :
    ridx_main_v0 i k = ix2 k (⟨(i 1).val, idx2_lt1 i⟩ : Fin 64) :=
  funext fun a => Fin.ext (by match a with | ⟨0, _⟩ => rfl | ⟨1, _⟩ => rfl)
theorem bidx1 (i : S12288x64.Idx) :
    idx_main_v1 (idx_main_v2 i) = ix1 (⟨(i 1).val, idx2_lt1 i⟩ : Fin 64) :=
  funext fun a => Fin.ext (by match a with | ⟨0, _⟩ => rfl)
theorem lidx4 (i : S12288x64.Idx) (k : Fin 12288) :
    lidx_main_v4 i k = ix2 (⟨(i 0).val, idx2_lt0 i⟩ : Fin 12288) k :=
  funext fun a => Fin.ext (by match a with | ⟨0, _⟩ => rfl | ⟨1, _⟩ => rfl)
theorem ridx4 (i : S12288x64.Idx) (k : Fin 12288) :
    ridx_main_v4 i k = ix2 k (⟨(i 1).val, idx2_lt1 i⟩ : Fin 64) :=
  funext fun a => Fin.ext (by match a with | ⟨0, _⟩ => rfl | ⟨1, _⟩ => rfl)
theorem lidx6 (i : S12288x16.Idx) (k : Fin 64) :
    lidx_main_v6 i k = ix2 (⟨(i 0).val, idx2_lt0 i⟩ : Fin 12288) k :=
  funext fun a => Fin.ext (by match a with | ⟨0, _⟩ => rfl | ⟨1, _⟩ => rfl)
theorem ridx6 (i : S12288x16.Idx) (k : Fin 64) :
    ridx_main_v6 i k = ix2 k (⟨(i 1).val, idx2_lt1 i⟩ : Fin 16) :=
  funext fun a => Fin.ext (by match a with | ⟨0, _⟩ => rfl | ⟨1, _⟩ => rfl)
theorem bidx7 (i : S12288x16.Idx) :
    idx_main_v7 (idx_main_v8 i) = ix1 (⟨(i 1).val, idx2_lt1 i⟩ : Fin 16) :=
  funext fun a => Fin.ext (by match a with | ⟨0, _⟩ => rfl)
theorem lidx10 (i : S12288x16.Idx) (k : Fin 12288) :
    lidx_main_v10 i k = ix2 (⟨(i 0).val, idx2_lt0 i⟩ : Fin 12288) k :=
  funext fun a => Fin.ext (by match a with | ⟨0, _⟩ => rfl | ⟨1, _⟩ => rfl)
theorem ridx10 (i : S12288x16.Idx) (k : Fin 12288) :
    ridx_main_v10 i k = ix2 k (⟨(i 1).val, idx2_lt1 i⟩ : Fin 16) :=
  funext fun a => Fin.ext (by match a with | ⟨0, _⟩ => rfl | ⟨1, _⟩ => rfl)

/-! ## The stages -/

variable (x : S12288x500.Idx → EReal) (adj : S12288x12288.Idx → EReal) (w1 : S500x64.Idx → EReal) (b1 : S64.Idx → EReal)
  (w2 : S64x16.Idx → EReal) (b2 : S16.Idx → EReal)

/-- `x · W₁ + b₁`: the first dense layer. -/
theorem stage_dense1 : val_main_v3 (F := Ideal) x w1 b1 = dense x w1 b1 := by
  funext i
  rw [val_main_v3_apply, val_main_v0_apply, val_main_v2_apply, val_main_v1_apply]
  simp only [lidx0, ridx0, bidx1]
  rfl

/-- `A · (x · W₁ + b₁)`: the first aggregation. -/
theorem stage_agg1 : val_main_v4 (F := Ideal) x adj w1 b1 = matMul adj (dense x w1 b1) := by
  funext i
  rw [val_main_v4_apply, stage_dense1]
  simp only [lidx4, ridx4]
  rfl

/-- Its floor at zero: the reference's maximum with a broadcast float zero, the extended real 0. -/
theorem stage_hidden : val_main_v5 (F := Ideal) x adj w1 b1 = floorZero (matMul adj (dense x w1 b1)) := by
  funext i
  rw [val_main_v5_apply, stage_agg1, val_main_call0_v0_apply, val_main_call0_cst_apply]
  show max _ (Ideal.ofBits .f32 0x00000000#32) = max _ 0
  rw [Ideal.ofBits_zero_f32]

/-- `h · W₂ + b₂`: the second dense layer. -/
theorem stage_dense2 : val_main_v9 (F := Ideal) x adj w1 b1 w2 b2
    = dense (floorZero (matMul adj (dense x w1 b1))) w2 b2 := by
  funext i
  rw [val_main_v9_apply, val_main_v6_apply, val_main_v8_apply, val_main_v7_apply, stage_hidden]
  simp only [lidx6, ridx6, bidx7]
  rfl

/-- The reference's result is the two layers of its arguments. -/
theorem result_eq : val_main_v10 (F := Ideal) x adj w1 b1 w2 b2 = twoLayers x adj w1 b1 w2 b2 := by
  funext i
  rw [val_main_v10_apply, stage_dense2]
  simp only [lidx10, ridx10]
  rfl

end Cert.ReferenceIdeal.RefLayers

end
-- ==== Proof.lean ====
/- Two graph-convolution layers, A · (max (A · (X · W₁ + b₁)) 0 · W₂ + b₂), computed by four pipelined kernels
   (a dense layer over blocks of 512 rows, an aggregation over blocks of 256 rows of the adjacency matrix with the floor at
   zero, and the same two again without the floor) against the same expression written with four whole matrix products.
   Over the extended reals a change of float format is the identity, a product into a zero accumulator is the plain sum over
   the shared axis, and each kernel contracts its whole shared axis at once, so block by block the kernels compute the very
   sums the reference computes: no sum is regrouped, and the inputs' finiteness is never used.
   The kernels' side: each region's output array is its layer operation of the arrays the region read (one module per region),
   the regions are chained through the contents at their boundaries, and the run is stated with the result buffer named.
   The reference's side: its run, read one operation at a time, is the same composition of layer operations. -/
import proofs.«119408_j20529943675404_1_alg».proof.Defs
import proofs.«119408_j20529943675404_1_alg».proof.Proof.Gen.Kernel
import proofs.«119408_j20529943675404_1_alg».proof.Proof.Gen.Kernel.Skeleton
import proofs.«119408_j20529943675404_1_alg».proof.Proof.Gen.Kernel.Launch
import proofs.«119408_j20529943675404_1_alg».proof.Proof.Gen.Kernel.Points
import proofs.«119408_j20529943675404_1_alg».proof.Proof.Gen.Kernel.Frame
import proofs.«119408_j20529943675404_1_alg».proof.Proof.Gen.KernelIdeal
import proofs.«119408_j20529943675404_1_alg».proof.Proof.Gen.KernelIdeal.Skeleton
import proofs.«119408_j20529943675404_1_alg».proof.Proof.Gen.KernelIdeal.Launch
import proofs.«119408_j20529943675404_1_alg».proof.Proof.Gen.KernelIdeal.Points
import proofs.«119408_j20529943675404_1_alg».proof.Proof.Gen.KernelIdeal.Frame
import proofs.«119408_j20529943675404_1_alg».proof.Proof.Gen.ReferenceIdeal
import proofs.«119408_j20529943675404_1_alg».proof.Proof.Gen.Pre_finite_inputs
import proofs.«119408_j20529943675404_1_alg».proof.Proof.Gen.ReferenceIdeal.Run
import proofs.«119408_j20529943675404_1_alg».proof.Proof.Gen.ReferenceIdeal.Read
import proofs.«119408_j20529943675404_1_alg».proof.Proof.Layers
import proofs.«119408_j20529943675404_1_alg».proof.Proof.KernelRun
import proofs.«119408_j20529943675404_1_alg».proof.Proof.KernelValue
import proofs.«119408_j20529943675404_1_alg».proof.Proof.RefValue
import Idealize.ShloMosaic.Adequacy
import Idealize.ShloMosaic.Init

noncomputable section

namespace Cert.Proof

open Idealize.ShloMosaic Idealize.SL.Sem

/-- The kernels as printed run to the end and leave the arguments as launched. -/
theorem frame_kernel : Cert.frame_Kernel (hKernel := Cert.Kernel.Gen.facts) (hPre_finite_inputs := Cert.Pre_finite_inputs.Gen.facts) :=
  fun m ρ _ => Cert.Kernel.Gen.frame m ρ

/-- So do the kernels read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs to the end and leaves the arguments as launched: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the two layers of their arguments in the result buffer, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Layers.twoLayers (Cert.KernelIdeal.Chain.argX m c) (Cert.KernelIdeal.Chain.argA m c)
    (Cert.KernelIdeal.Chain.argW1 m c) (Cert.KernelIdeal.Chain.argB1 m c) (Cert.KernelIdeal.Chain.argW2 m c)
    (Cert.KernelIdeal.Chain.argB2 m c), ?_, ?_⟩
  · exact (θ_run Cert.KernelIdeal.defs _ _).mono
      (fun _ h c => ⟨(h c).1.trans (Cert.KernelIdeal.Chain.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v10_eq, Cert.ReferenceIdeal.RefLayers.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
